-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : IVec S16384x16384 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S16384x16384 : Shape := ⟨2, ![16384, 16384]⟩
abbrev S1024x2048 : Shape := ⟨2, ![1024, 2048]⟩
abbrev S1024x128 : Shape := ⟨2, ![1024, 128]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x16384, .i32⟩
  | .hbm, ⟨2, _⟩ => ⟨S16384x128, .f32⟩
  | .local _ .vmem, ⟨0, _⟩ => ⟨S1024x2048, .i32⟩
  | .local _ .vmem, ⟨1, _⟩ => ⟨S1024x2048, .i32⟩
  | .local _ .vmem, ⟨2, _⟩ => ⟨S16384x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v19 : BitVec 32 := Scalar.muli arg0 c1024_i32
  v19
def k0_off1 (i : grid0.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def k0_mult2 (i : grid0.Coords) : BitVec 32 :=
  let arg1 : BitVec 32 := BitVec.ofNat 32 (i 1).val
  let c2048_i32 : BitVec 32 := 2048#32
  let v5 : BitVec 32 := Scalar.muli arg1 c2048_i32
  v5
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  h_S1024x128 : 0 < S1024x128.numel
  inb_S1024x128_S1024x128_0_0 : ∀ a, (![0, 0] : Fin 2 → Nat) a + S1024x128.size a ≤ S1024x128.size a
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  h_S2048x128 : 0 < S2048x128.numel
  bitsLt_bf16_f32 : FTy.bits .bf16 < FTy.bits .f32
  dot_S1024x2048_S2048x128_S1024x128_1_0_0_1_n_n_wf : DotDims.WF S1024x2048 S2048x128 S1024x128 [1] [0] [0] [1] [] []
  hrank0 : 0 < grid0.rank
  k0_mult1_dvd : ∀ i : grid0.Coords, ∀ (k0_h1 : k0_cond1 i = 1#1), 1024 ∣ (k0_mult1 i).toNat
  k0_off1_inb : ∀ i : grid0.Coords, ∀ (k0_h1 : k0_cond1 i = 1#1), ∀ a, (k0_off1 i) a + S1024x128.size a ≤ S16384x128.size a
  k0_mult2_dvd : ∀ i : grid0.Coords, 2048 ∣ (k0_mult2 i).toNat
  k0_off2_inb : ∀ i : grid0.Coords, ∀ a, (k0_off2 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .i32 = 32 ∨ (Rect.block (s := S16384x16384) S1024x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .i32⟩
  | .hbm, ⟨2, _⟩ => ⟨S16384x16384, .f32⟩
  | .hbm, ⟨3, _⟩ => ⟨S16384x128, .f32⟩
  | .hbm, ⟨4, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S16384x16384_S16384x128_S16384x128_1_0_0_1_n_n_wf : DotDims.WF S16384x16384 S16384x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.Spec.lean ====
/-
  The value both programs compute, as ONE function of the two argument arrays, and the bookkeeping of its sum.

  For a feature array `x` (16384 rows of 128 entries, extended reals) and an adjacency array `a` (16384 × 16384
  signed 32-bit words) the result at row `r`, column `q` is

      x[r, q] + ∑ j < 16384, (a[r, j] read as a signed integer) · x[j, q].

  The kernel does not form this sum at once: it starts from `x[r, q]` and adds the 16384 products in eight
  consecutive stretches of 2048. So the sum is stated over an initial segment of the naturals, `acc … n` being the
  residual plus the first `n` products; a stretch of 2048 more products then extends `acc` by `Finset.sum_range_add`,
  and only addition's associativity is used — nothing that fails at an infinite entry.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.NeighbourSum

open Idealize.ShloMosaic Idealize.ShloMosaic.ValueIdx

/-- The feature array's index set and the adjacency array's, over literal extents. -/
abbrev XIdx : Type := (⟨2, ![16384, 128]⟩ : Shape).Idx
abbrev AIdx : Type := (⟨2, ![16384, 16384]⟩ : Shape).Idx

/-- A natural number as a row number of the 16384-row arrays (reduced modulo 16384, so that the function is total;
    it is only ever read below 16384, where it is the number itself). -/
def rowOf (n : ℕ) : Fin 16384 := ⟨n % 16384, Nat.mod_lt _ (by norm_num)⟩

theorem rowOf_val {n : ℕ} (h : n < 16384) : (rowOf n).val = n := Nat.mod_eq_of_lt h

theorem rowOf_fin (k : Fin 16384) : rowOf k.val = k := Fin.ext (rowOf_val k.isLt)

/-- The `j`-th product of the sum at row `r`, column `q`: the adjacency word `a[r, j]` as a signed integer, times
    `x[j, q]`. -/
def nbr (x : XIdx → EReal) (a : AIdx → BitVec 32) (r : Fin 16384) (q : Fin 128) (j : ℕ) : EReal :=
  (((a (ix2 r (rowOf j))).toInt : ℝ) : EReal) * x (ix2 (rowOf j) q)

/-- The residual entry plus the first `n` products. -/
def acc (x : XIdx → EReal) (a : AIdx → BitVec 32) (r : Fin 16384) (q : Fin 128) (n : ℕ) : EReal :=
  x (ix2 r q) + ∑ j ∈ Finset.range n, nbr x a r q j

/-- THE RESULT: at every index the residual entry plus all 16384 products of its row and column. -/
def G (x : XIdx → EReal) (a : AIdx → BitVec 32) : XIdx → EReal :=
  fun i => acc x a (i 0) (i 1) 16384

variable (x : XIdx → EReal) (a : AIdx → BitVec 32) (r : Fin 16384) (q : Fin 128)

/-- With no product added yet there is only the residual entry. -/
theorem acc_zero : acc x a r q 0 = x (ix2 r q) := by
  unfold acc; rw [Finset.sum_range_zero, add_zero]

/-- `m` more products after the first `n`. -/
theorem acc_add (n m : ℕ) :
    acc x a r q (n + m) = acc x a r q n + ∑ j ∈ Finset.range m, nbr x a r q (n + j) := by
  unfold acc; rw [Finset.sum_range_add, add_assoc]

/-- One stretch of 2048 products, the `k`-th, indexed by its position inside the stretch. -/
theorem acc_stretch (k : ℕ) :
    acc x a r q (2048 * (k + 1)) = acc x a r q (2048 * k) + ∑ j : Fin 2048, nbr x a r q (2048 * k + j.val) := by
  rw [show 2048 * (k + 1) = 2048 * k + 2048 by ring, acc_add, Finset.sum_range]

/-- The first stretch, on top of the bare residual entry. -/
theorem acc_first : acc x a r q 2048 = x (ix2 r q) + ∑ j : Fin 2048, nbr x a r q j.val := by
  have h := acc_stretch x a r q 0
  rw [Nat.mul_zero, acc_zero] at h
  simpa using h

/-- ONE STEP OF THE ACCUMULATION, in the form a grid point performs it: an accumulator entry holding the residual plus the
    products before stretch `k`, to which the stretch's 2048 products are added — the adjacency words `A j` and feature
    entries `X j` being those of row `r`, column `q` at positions `2048 k + j` — holds the residual plus the products up to
    the end of stretch `k`. -/
theorem acc_step (k : ℕ) (prev : EReal) (hprev : prev = acc x a r q (2048 * k))
    (A : Fin 2048 → BitVec 32) (X : Fin 2048 → EReal)
    (hA : ∀ j : Fin 2048, A j = a (ix2 r (rowOf (2048 * k + j.val))))
    (hX : ∀ j : Fin 2048, X j = x (ix2 (rowOf (2048 * k + j.val)) q)) :
    prev + ∑ j : Fin 2048, (((A j).toInt : ℝ) : EReal) * X j = acc x a r q (2048 * (k + 1)) := by
  rw [acc_stretch, hprev]
  refine congrArg (acc x a r q (2048 * k) + ·) (Finset.sum_congr rfl fun j _ => ?_)
  unfold nbr; rw [hA, hX]

/-- The result as the plain sum over a row of the adjacency array. -/
theorem G_apply (i : XIdx) :
    G x a i = x i + ∑ k : Fin 16384, (((a (ix2 (i 0) k)).toInt : ℝ) : EReal) * x (ix2 k (i 1)) := by
  show acc x a (i 0) (i 1) 16384 = _
  unfold acc
  rw [Finset.sum_range]
  refine congrArg₂ (· + ·) (congrArg x (eq_ix2 i).symm) (Finset.sum_congr rfl fun k _ => ?_)
  unfold nbr; rw [rowOf_fin]

end Cert.NeighbourSum

end
-- ==== Proof.Pieces.lean ====
/-
  What one grid point leaves in the accumulator and in the output block, as values.

  At every point the body reads the point's 1024 × 2048 block of adjacency words, the 2048 rows of the (whole, resident)
  feature array that the block's columns select, and the accumulator; it writes back the accumulator plus the block's
  matrix product with those rows. At the first point of a row block the accumulator is first overwritten with the row
  block's own 1024 rows of the feature array (the residual term); at the last point the accumulator is copied to the
  output block. Below, each of these is read off the stores the three control cases perform: the accumulator after the
  point is ONE payload `k0_pay2` of the block, the selected rows and what the accumulator held before the product.
-/
import proofs.«138589_j28157805593351_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0] : Fin 2 → Nat) = fun _ => 0 := funext fun a => by fin_cases a <;> rfl

/-- The 2048 rows of the feature array against which a point contracts its adjacency block: rows
    `2048 · (i 1)` onwards. -/
def chunk (i : grid0.Coords) (x1 : Vec F S16384x128 .f32) : Vec F S2048x128 .f32 :=
  View.ld x1 (Rect.unit (s := S16384x128) (k0_off2 i) S2048x128.size (k0_off2_inb i))

/-- The 1024 rows of the feature array a row block's first point copies into the accumulator: rows `1024 · (i 0)`
    onwards. -/
def resid (i : grid0.Coords) (h : cond0_0 i) (x1 : Vec F S16384x128 .f32) : Vec F S1024x128 .f32 :=
  View.ld x1 (Rect.unit (s := S16384x128) (k0_off1 i) S1024x128.size (k0_off1_inb i h))

/-- A middle point of a row block: the accumulator `xs0` gains the block's product. -/
theorem sout_B (c : Dev nD) (i : grid0.Coords) (a2 : Memref sig .tc .vmem S1024x2048 .i32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (hc0 : ¬cond0_0 i) (hc1 : ¬cond0_1 i)
    (x0 : Vec F S1024x2048 .i32) (x1 : Vec F S16384x128 .f32) (xs0 : Vec F S1024x128 .f32) :
    sout0_B_0 c i a2 h2 a3 h3 a4 h4 a5 h5 hc0 hc1 x0 x1 xs0 = k0_pay2 x0 (chunk i x1) xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x128) hz,
    View.ld_unit_zero (S := S1024x2048) hz]
  rfl

/-- The last point of a row block: the accumulator gains the block's product, -/
theorem sout_C (c : Dev nD) (i : grid0.Coords) (a2 : Memref sig .tc .vmem S1024x2048 .i32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (hc0 : ¬cond0_0 i) (hc1 : cond0_1 i)
    (x0 : Vec F S1024x2048 .i32) (x1 : Vec F S16384x128 .f32) (xs0 : Vec F S1024x128 .f32) :
    sout0_C_0 c i a2 h2 a3 h3 a4 h4 a5 h5 hc0 hc1 x0 x1 xs0 = k0_pay2 x0 (chunk i x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x128) hz,
    View.ld_unit_zero (S := S1024x2048) hz]
  rfl

/-- and the output block receives that same updated accumulator (read back after the store). -/
theorem out_C (c : Dev nD) (i : grid0.Coords) (a2 : Memref sig .tc .vmem S1024x2048 .i32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (hc0 : ¬cond0_0 i) (hc1 : cond0_1 i)
    (x0 : Vec F S1024x2048 .i32) (x1 : Vec F S16384x128 .f32) (xs0 : Vec F S1024x128 .f32) :
    out0_C_2 c i a2 h2 a3 h3 a4 h4 a5 h5 hc0 hc1 x0 x1 xs0 = k0_pay2 x0 (chunk i x1) xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x128) _ hz]
  simp only [View.readAt_eq_ld, h2.read_unread, h3.read_unread, h5.read_unread, View.ld_unit_zero (S := S1024x128) hz,
    View.ld_unit_zero (S := S1024x2048) hz]
  rfl

/-- The first point of a row block: the accumulator is reset to the row block's rows of the feature array (whatever
    it held), read back, and gains the block's product. -/
theorem sout_A (c : Dev nD) (i : grid0.Coords) (a2 : Memref sig .tc .vmem S1024x2048 .i32) (h2 : a2.IsWhole) (a3 : Memref sig .tc .vmem S16384x128 .f32) (h3 : a3.IsWhole) (a4 : Memref sig .tc .vmem S1024x128 .f32) (h4 : a4.IsWhole) (a5 : Memref sig .tc .vmem S1024x128 .f32) (h5 : a5.IsWhole) (hc0 : cond0_0 i) (hc1 : ¬cond0_1 i)
    (x0 : Vec F S1024x2048 .i32) (x1 : Vec F S16384x128 .f32) :
    sout0_A_0 c i a2 h2 a3 h3 a4 h4 a5 h5 hc0 hc1 x0 x1 = k0_pay2 x0 (chunk i x1) (k0_pay1 (resid i hc0 x1)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x128) hz,
    View.ld_unit_zero (S := S1024x2048) hz]
  rfl

end Cert.KernelIdeal.Pieces

end
-- ==== Proof.Payload.lean ====
/-
  The body's arithmetic at one entry, over the extended reals.

  The body's one computing payload `k0_pay2` takes a 1024 × 2048 block of signed 32-bit words, 2048 rows of features
  and an accumulator block, and returns the accumulator plus the matrix product of the words (converted to floats)
  with the rows. At the ideal instance the conversion of a word is the integer it denotes, a change of float format
  is the identity, and a matrix product into a zero accumulator is the plain sum over the contracted axis: at row `p`,
  column `q` the payload is

      acc[p, q] + ∑ j < 2048, (word[p, j] as a signed integer) · rows[j, q].

  The other payload `k0_pay1` is a shape cast to the same shape: the identity.
-/
import proofs.«138589_j28157805593351_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Payload

open Cert.KernelIdeal Cert.KernelIdeal.Gen Idealize.ShloMosaic Idealize.ShloMosaic.TcCoe Idealize.SL.Sem
open Idealize.ShloMosaic.Tactic Idealize.ShloMosaic.ValueIdx

/-- The reset's payload is what it is given (a cast of a 1024 × 128 block to its own shape). -/
theorem pay1_eq {F : FTy → Type} [FloatOps F] (v22 : Vec F S1024x128 .f32) : k0_pay1 v22 = v22 := by
  unfold k0_pay1; exact shapeCast_self _ _

/-! The operand indices of the body's matrix product, axis by axis: at output entry `(p, q)` and contraction position
    `k` the left operand is read at `(p, k)` and the right at `(k, q)`. -/

theorem lhs_axis0 (i : S1024x128.Idx) (k : dot_S1024x2048_S2048x128_S1024x128_1_0_0_1_n_n.contr.Idx) :
    (dot_S1024x2048_S2048x128_S1024x128_1_0_0_1_n_n.lhsIdx i k 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_axis1 (i : S1024x128.Idx) (k : dot_S1024x2048_S2048x128_S1024x128_1_0_0_1_n_n.contr.Idx) :
    (dot_S1024x2048_S2048x128_S1024x128_1_0_0_1_n_n.lhsIdx i k 1).val = (k ⟨0, by decide⟩).val :=
  dot_S1024x2048_S2048x128_S1024x128_1_0_0_1_n_n.lhsIdx_val_of_single rfl i k
theorem rhs_axis0 (i : S1024x128.Idx) (k : dot_S1024x2048_S2048x128_S1024x128_1_0_0_1_n_n.contr.Idx) :
    (dot_S1024x2048_S2048x128_S1024x128_1_0_0_1_n_n.rhsIdx i k 0).val = (k ⟨0, by decide⟩).val :=
  dot_S1024x2048_S2048x128_S1024x128_1_0_0_1_n_n.rhsIdx_val_of_single rfl i k
theorem rhs_axis1 (i : S1024x128.Idx) (k : dot_S1024x2048_S2048x128_S1024x128_1_0_0_1_n_n.contr.Idx) :
    (dot_S1024x2048_S2048x128_S1024x128_1_0_0_1_n_n.rhsIdx i k 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- THE PAYLOAD AT AN ENTRY, at the ideal instance: the accumulator's entry plus the 2048 products of the entry's row
    of words with its column of the feature rows. -/
theorem pay2_apply (v3 : Vec Ideal S1024x2048 .i32) (v8 : Vec Ideal S2048x128 .f32) (v10 : Vec Ideal S1024x128 .f32)
    (p : Fin 1024) (q : Fin 128) :
    k0_pay2 (F := Ideal) v3 v8 v10 (ix2 p q)
      = v10 (ix2 p q) + ∑ j : Fin 2048, (((v3 (ix2 p j)).toInt : ℝ) : EReal) * v8 (ix2 j q) := by
  unfold k0_pay2
  rw [shapeCast_self]
  show v10 (ix2 p q) + FloatOps.matmul dot_S1024x2048_S2048x128_S1024x128_1_0_0_1_n_n none (sitofp (F := Ideal) .bf16 v3) (truncf (F := Ideal) .bf16 v8 bitsLt_bf16_f32)
      (constant (F := Ideal) S1024x128 .f32 0x00000000#32) (ix2 p q) = _
  rw [Ideal.matmul_constant_zero_apply, ← Equiv.sum_comp (contrEquiv1 dot_S1024x2048_S2048x128_S1024x128_1_0_0_1_n_n 2048 rfl rfl).symm]
  refine congrArg (v10 (ix2 p q) + ·) (Finset.sum_congr rfl fun k _ => ?_)
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]
  rfl

end Cert.KernelIdeal.Payload

end
-- ==== Proof.Accum.lean ====
/-
  The accumulator, point by point, and the output block it ends in.

  The grid has 16 row blocks of 8 points each, visited row block by row block: point `t` works on row block `t / 8` and
  on the `t % 8`-th stretch of 2048 columns of the adjacency array. Its adjacency block is rows
  `1024 · (t / 8) …`, columns `2048 · (t % 8) …` of that array; the feature array is resident whole, and the body
  selects from it rows `2048 · (t % 8) …` for the product and, at the first point of a row block, rows
  `1024 · (t / 8) …` for the residual.

  THE INVARIANT (`scratch_eq`): after point `t` the accumulator's entry `(p, q)` is the residual entry of row
  `1024 · (t / 8) + p`, column `q`, plus that row's first `2048 · (t % 8 + 1)` products — by induction on the point: a
  first point starts from the residual alone, any other from what the point before left, which is the same row block's
  sum one stretch shorter; each adds one stretch (`acc_step`). At the last point of a row block all 16384 products
  are in, and the output block receives exactly that (`out_eq`).
-/
import proofs.«138589_j28157805593351_2_alg».proof.Proof.Gen.KernelIdeal.Value
import proofs.«138589_j28157805593351_2_alg».proof.Proof.Spec
import proofs.«138589_j28157805593351_2_alg».proof.Proof.Pieces
import proofs.«138589_j28157805593351_2_alg».proof.Proof.Payload

noncomputable section

namespace Cert.KernelIdeal.Accum

open Cert.KernelIdeal Cert.KernelIdeal.Gen Idealize.ShloMosaic Idealize.ShloMosaic.TcCoe Idealize.SL.Sem
open Idealize.ShloMosaic.ValueIdx
open Cert.NeighbourSum Cert.KernelIdeal.Pieces Cert.KernelIdeal.Payload

variable (m : (ℓ : Loc nD τ sig) → Buf (Elt Ideal) ℓ)

/-- The two argument arrays as the region finds them, and the two input blocks of a point, each at its literal type. -/
abbrev xarr (c : Dev nD) : Vec Ideal S16384x128 .f32 := V m c main_arg0
abbrev aarr (c : Dev nD) : Vec Ideal S16384x16384 .i32 := V m c main_arg1
abbrev ablk (c : Dev nD) (t : Fin cfg0.N) : Vec Ideal S1024x2048 .i32 := iblk m c 0 t
abbrev xblk (c : Dev nD) (t : Fin cfg0.N) : Vec Ideal S16384x128 .f32 := iblk m c 1 t

/-- The grid's coordinates and the three windows' block indices at point `t`, decided over the 128 points: row block
    `t / 8`, column stretch `t % 8`; the feature array's one block; the output's row block. -/
theorem grid_facts : ∀ t : Fin cfg0.N, (grid0.coords t 0).val = t.val / 8 ∧ (grid0.coords t 1).val = t.val % 8
    ∧ win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0 :=
  (by decide +kernel : ∀ t : Fin grid0.N, _)

theorem lt_N (t : Fin cfg0.N) : t.val < 128 := lt_of_lt_of_eq t.isLt (show cfg0.N = 128 from N_0)

/-- Row `p` of point `t`'s row block, as a row of the arrays. -/
def rowAt (t : Fin cfg0.N) (p : Fin 1024) : Fin 16384 :=
  ⟨1024 * (t.val / 8) + p.val, by have := lt_N t; have := p.isLt; omega⟩

theorem rowAt_val (t : Fin cfg0.N) (p : Fin 1024) : (rowAt t p).val = 1024 * (t.val / 8) + p.val := rfl

/-! ## The blocks and the selected rows, read at an entry -/

/-- The adjacency block of point `t` at `(p, j)` is the array at row `1024 · (t / 8) + p`, column `2048 · (t % 8) + j`. -/
theorem ablk_apply (c : Dev nD) (t : Fin cfg0.N) (p : Fin 1024) (j : Fin 2048) :
    ablk m c t (ix2 p j) = aarr m c (ix2 (rowAt t p) (rowOf (2048 * (t.val % 8) + j.val))) := by
  obtain ⟨-, -, e0, e1, -⟩ := grid_facts t
  have hj := j.isLt
  have ht := lt_N t
  unfold ablk iblk
  rw [View.read_apply]
  show V m c main_arg1 _ = V m c main_arg1 _
  congr 1
  funext a; apply Fin.ext
  match a with
  | ⟨0, _⟩ => show win0_0.index t (0 : Fin 2) * 1024 + 1 * p.val = 1024 * (t.val / 8) + p.val; omega
  | ⟨1, _⟩ =>
    show win0_0.index t (1 : Fin 2) * 2048 + 1 * j.val = (rowOf (2048 * (t.val % 8) + j.val)).val
    rw [rowOf_val (by omega)]; omega

/-- The feature array's block is the whole array at every point. -/
theorem xblk_apply (c : Dev nD) (t : Fin cfg0.N) (r : Fin 16384) (q : Fin 128) :
    xblk m c t (ix2 r q) = xarr m c (ix2 r q) := by
  obtain ⟨-, -, -, -, e0, e1, -⟩ := grid_facts t
  unfold xblk iblk
  rw [View.read_apply]
  show V m c main_arg0 _ = V m c main_arg0 _
  congr 1
  funext a; apply Fin.ext
  match a with
  | ⟨0, _⟩ => show win0_1.index t (0 : Fin 2) * 16384 + 1 * r.val = r.val; omega
  | ⟨1, _⟩ => show win0_1.index t (1 : Fin 2) * 128 + 1 * q.val = q.val; omega

/-- The rows selected for the product, at `(j, q)`: the resident array at row `2048 · (i 1) + j`. -/
theorem chunk_apply {F : FTy → Type} [FloatOps F] (i : grid0.Coords) (x1 : Vec F S16384x128 .f32) (j : Fin 2048) (q : Fin 128)
    (r : Fin 16384) (hr : r.val = 2048 * (i 1).val + j.val) : chunk i x1 (ix2 j q) = x1 (ix2 r q) := by
  have e0 : k0_off2 i 0 = 2048 * (i 1).val := congrFun (k0_off2_eq i) 0
  have e1 : k0_off2 i 1 = 0 := congrFun (k0_off2_eq i) 1
  unfold chunk
  show x1 _ = x1 _
  congr 1
  funext a; apply Fin.ext
  match a with
  | ⟨0, _⟩ => show k0_off2 i 0 + 1 * j.val = r.val; omega
  | ⟨1, _⟩ => show k0_off2 i 1 + 1 * q.val = q.val; omega

/-- The rows selected for the residual, at `(p, q)`: the resident array at row `1024 · (i 0) + p`. -/
theorem resid_apply {F : FTy → Type} [FloatOps F] (i : grid0.Coords) (h : cond0_0 i) (x1 : Vec F S16384x128 .f32) (p : Fin 1024) (q : Fin 128)
    (r : Fin 16384) (hr : r.val = 1024 * (i 0).val + p.val) : resid i h x1 (ix2 p q) = x1 (ix2 r q) := by
  have e0 : k0_off1 i 0 = 1024 * (i 0).val := congrFun (k0_off1_eq i) 0
  have e1 : k0_off1 i 1 = 0 := congrFun (k0_off1_eq i) 1
  unfold resid
  show x1 _ = x1 _
  congr 1
  funext a; apply Fin.ext
  match a with
  | ⟨0, _⟩ => show k0_off1 i 0 + 1 * p.val = r.val; omega
  | ⟨1, _⟩ => show k0_off1 i 1 + 1 * q.val = q.val; omega

/-! ## One point's step, and the invariant -/

/-- ONE POINT: if the accumulator entry `(p, q)` holds, before the product, the residual plus the products before the
    point's stretch, then after the body's update it holds them up to the end of the stretch. -/
theorem point_step (c : Dev nD) (t : Fin cfg0.N) (prev : Vec Ideal S1024x128 .f32) (p : Fin 1024) (q : Fin 128)
    (hprev : prev (ix2 p q) = acc (xarr m c) (aarr m c) (rowAt t p) q (2048 * (t.val % 8))) :
    k0_pay2 (F := Ideal) (ablk m c t) (chunk (grid0.coords t) (xblk m c t)) prev (ix2 p q)
      = acc (xarr m c) (aarr m c) (rowAt t p) q (2048 * (t.val % 8 + 1)) := by
  obtain ⟨g0, g1, -⟩ := grid_facts t
  have ht := lt_N t
  refine (pay2_apply (ablk m c t) (chunk (grid0.coords t) (xblk m c t)) prev p q).trans ?_
  exact acc_step (xarr m c) (aarr m c) (rowAt t p) q (t.val % 8) (prev (ix2 p q)) hprev
    (fun j => ablk m c t (ix2 p j)) (fun j => chunk (grid0.coords t) (xblk m c t) (ix2 j q))
    (fun j => ablk_apply m c t p j)
    (fun j => (chunk_apply (grid0.coords t) (xblk m c t) j q (rowOf (2048 * (t.val % 8) + j.val))
      (by have := j.isLt; rw [rowOf_val (by omega), g1])).trans (xblk_apply m c t _ q))

/-- THE INVARIANT: after point `n` the accumulator's entry `(p, q)` is the residual of its row plus the row's products
    through the end of the point's stretch. -/
theorem scratch_eq (c : Dev nD) : ∀ (n : ℕ) (h : n < cfg0.N) (p : Fin 1024) (q : Fin 128),
    (outsAt0 m c n h).2 (ix2 p q) = acc (xarr m c) (aarr m c) (rowAt ⟨n, h⟩ p) q (2048 * (n % 8 + 1)) := by
  intro n
  induction n using Nat.strong_induction_on with
  | _ n ih =>
    intro h p q
    have hN : n < 128 := lt_of_lt_of_eq h (show cfg0.N = 128 from N_0)
    obtain ⟨g0, g1, -⟩ := grid_facts ⟨n, h⟩
    by_cases h0 : n % 8 = 0
    · have h1 : ¬n % 8 = 7 := by omega
      rw [outsAt0_A m c ⟨n, h⟩ h0 h1]; dsimp only
      refine (congrFun (sout_A (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) scM0_0 (Memref.isWhole_whole _) ((hcond0_0 ⟨n, h⟩).mpr h0)
        (fun hh => h1 ((hcond0_1 ⟨n, h⟩).mp hh)) (ablk m c ⟨n, h⟩) (xblk m c ⟨n, h⟩)) (ix2 p q)).trans ?_
      refine point_step m c ⟨n, h⟩ _ p q ?_
      have ez : acc (xarr m c) (aarr m c) (rowAt ⟨n, h⟩ p) q (2048 * (n % 8)) = xarr m c (ix2 (rowAt ⟨n, h⟩ p) q) := by
        rw [h0, Nat.mul_zero, acc_zero]
      rw [pay1_eq]
      refine Eq.trans ?_ ez.symm
      exact (resid_apply (grid0.coords ⟨n, h⟩) _ (xblk m c ⟨n, h⟩) p q (rowAt ⟨n, h⟩ p)
        (by rw [rowAt_val, g0])).trans (xblk_apply m c ⟨n, h⟩ _ q)
    · have h' : n - 1 < cfg0.N := Nat.lt_of_le_of_lt (Nat.sub_le _ _) h
      have e1 : rowAt ⟨n - 1, h'⟩ p = rowAt ⟨n, h⟩ p := Fin.ext (by
        show 1024 * ((n - 1) / 8) + p.val = 1024 * (n / 8) + p.val; omega)
      have e2 : 2048 * ((n - 1) % 8 + 1) = 2048 * (n % 8) := by omega
      have hprev : (outsAt0 m c (n - 1) h').2 (ix2 p q) = acc (xarr m c) (aarr m c) (rowAt ⟨n, h⟩ p) q (2048 * (n % 8)) := by
        rw [ih (n - 1) (by omega) h' p q, e1, e2]
      by_cases h1 : n % 8 = 7
      · rw [outsAt0_C m c ⟨n, h⟩ h0 h1]; dsimp only
        refine (congrFun (sout_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh))
          ((hcond0_1 ⟨n, h⟩).mpr h1) (ablk m c ⟨n, h⟩) (xblk m c ⟨n, h⟩) (outsAt0 m c (n - 1) h').2) (ix2 p q)).trans ?_
        exact point_step m c ⟨n, h⟩ _ p q hprev
      · rw [outsAt0_B m c ⟨n, h⟩ h0 h1]; dsimp only
        refine (congrFun (sout_B (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) scM0_0 (Memref.isWhole_whole _) (fun hh => h0 ((hcond0_0 ⟨n, h⟩).mp hh))
          (fun hh => h1 ((hcond0_1 ⟨n, h⟩).mp hh)) (ablk m c ⟨n, h⟩) (xblk m c ⟨n, h⟩) (outsAt0 m c (n - 1) h').2) (ix2 p q)).trans ?_
        exact point_step m c ⟨n, h⟩ _ p q hprev

/-- THE OUTPUT BLOCK at the last point of a row block: entry `(p, q)` is the result at row `1024 · (t / 8) + p`,
    column `q` — the accumulator after the last stretch, all 16384 products in. -/
theorem out_eq (c : Dev nD) (t : Fin cfg0.N) (h1 : t.val % 8 = 7) (p : Fin 1024) (q : Fin 128) :
    (outsAt0 m c t.val t.isLt).1 (ix2 p q) = G (xarr m c) (aarr m c) (ix2 (rowAt t p) q) := by
  have hN := lt_N t
  have h0 : ¬t.val % 8 = 0 := by omega
  have h' : t.val - 1 < cfg0.N := Nat.lt_of_le_of_lt (Nat.sub_le _ _) t.isLt
  have e1 : rowAt ⟨t.val - 1, h'⟩ p = rowAt t p := Fin.ext (by
    show 1024 * ((t.val - 1) / 8) + p.val = 1024 * (t.val / 8) + p.val; omega)
  have e2 : 2048 * ((t.val - 1) % 8 + 1) = 2048 * (t.val % 8) := by omega
  have hprev : (outsAt0 m c (t.val - 1) h').2 (ix2 p q) = acc (xarr m c) (aarr m c) (rowAt t p) q (2048 * (t.val % 8)) := by
    rw [scratch_eq m c (t.val - 1) h' p q, e1, e2]
  rw [outsAt0_C m c t h0 h1]; dsimp only
  refine (congrFun (out_C (F := Ideal) c (grid0.coords t) (ms0_0 t) (hs0_0 t) (ms0_1 t) (hs0_1 t)
    (ms0_2 t) (hs0_2 t) scM0_0 (Memref.isWhole_whole _) (fun hh => h0 ((hcond0_0 t).mp hh))
    ((hcond0_1 t).mpr h1) (ablk m c t) (xblk m c t) (outsAt0 m c (t.val - 1) h').2) (ix2 p q)).trans ?_
  refine (point_step m c t _ p q hprev).trans ?_
  show _ = acc (xarr m c) (aarr m c) (rowAt t p) q 16384
  rw [h1]

end Cert.KernelIdeal.Accum

end
-- ==== Proof.Final.lean ====
/-
  From the output blocks to the result array.

  The output array is cut into 16 row blocks of 1024 rows; row block `b` is written back once, after the last point
  `8 b + 7` of its run of eight, with the output block that point left — which is the result `G` on that row block
  (`out_eq`). Every row lies in exactly one of these blocks, so after the run the array is `G` of the two argument
  arrays everywhere.
-/
import proofs.«138589_j28157805593351_2_alg».proof.Proof.Accum

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx
open Cert.NeighbourSum Cert.KernelIdeal.Accum

variable (m : (ℓ : Loc nD τ sig) → Buf (Elt Ideal) ℓ) (ρ : Dev nD → PrngReg)

/-- THE RESULT ARRAY on core `c`: `G` of the two argument arrays as launched. -/
abbrev result (c : Dev nD) : Buf (Elt Ideal) ((c : Thread nD τ).loc main_v0) :=
  G (m ((c : Thread nD τ).loc main_arg0)) (m ((c : Thread nD τ).loc main_arg1))

/-- What a writing-back point writes is its row block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 8 = 7 := (flush0_2 t).mp hf
  obtain ⟨-, -, -, -, -, -, e0, e1⟩ := grid_facts t
  rw [Value.flushed2]
  funext y
  show (outsAt0 m c t.val t.isLt).1 y = G (xarr m c) (aarr m c) (((cfg0.win 2).blk t).view.emb y)
  refine ((congrArg (outsAt0 m c t.val t.isLt).1 (eq_ix2 y)).trans (out_eq m c t h1 (y 0) (y 1))).trans ?_
  congr 1
  funext a; apply Fin.ext
  match a with
  | ⟨0, _⟩ => show 1024 * (t.val / 8) + (y 0).val = win0_2.index t (0 : Fin 2) * 1024 + 1 * (y 0).val; omega
  | ⟨1, _⟩ => show (y 1).val = win0_2.index t (1 : Fin 2) * 128 + 1 * (y 1).val; omega

/-- An index of the array is in point `t`'s block iff each coordinate is in the block's range on its axis. -/
theorem mem_blk (t : Fin cfg0.N) (i : S16384x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Every index is in the block of a writing-back point: row `r` in that of the last point of row block `r / 1024`. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ : ∃ t : Fin cfg0.N, t.val = 8 * ((i 0).val / 1024) + 7 :=
    ⟨⟨8 * ((i 0).val / 1024) + 7, by rw [show cfg0.N = 128 from N_0]; omega⟩, rfl⟩
  obtain ⟨-, -, -, -, -, -, e0, e1⟩ := grid_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- So the output array ends holding the result. -/
theorem final (c : Dev nD) : (dats m 0 c).arrAt 2 cfg0.N = result m c :=
  (dats m 0 c).arrAt_eq_of_cover 2 (result m c) (flushed_eq m c) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference's result is the same function of the arguments.

  The reference converts the adjacency words to floats, contracts the converted array's columns against the feature
  array's rows in one product, and adds the feature array. At the ideal instance the conversion of a word is the
  integer it denotes and the product is the plain sum over the contracted axis, so at every index the result is the
  feature entry plus the sum over all 16384 columns: the specification's `G`, read as that sum (`G_apply`).
-/
import proofs.«138589_j28157805593351_2_alg».proof.Proof.Gen.ReferenceIdeal.Read
import proofs.«138589_j28157805593351_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.NeighbourSum

/-- The last stage of the reference, as a function of the two arguments, is `G` of them. -/
theorem result_eq (x0 : (⟨S16384x128, .f32⟩ : BufTy).Contents (Elt Ideal)) (x1 : (⟨S16384x16384, .i32⟩ : BufTy).Contents (Elt Ideal)) :
    Read.val_main_v2 (F := Ideal) x0 x1 = G x0 x1 := by
  funext i
  rw [Read.val_main_v2_apply, Read.val_main_v1_apply, G_apply]
  refine congrArg (x0 i + ·) (Finset.sum_congr rfl fun k _ => ?_)
  have el : Read.lidx_main_v1 i k = ix2 (i 0) k := funext fun a => Fin.ext (by
    match a with
    | ⟨0, _⟩ => rfl
    | ⟨1, _⟩ => rfl)
  have er : Read.ridx_main_v1 i k = ix2 k (i 1) := funext fun a => Fin.ext (by
    match a with
    | ⟨0, _⟩ => rfl
    | ⟨1, _⟩ => rfl)
  rw [Read.val_main_v0_apply, el, er]
  rfl

end Cert.ReferenceIdeal.RefValue

end
-- ==== Proof.lean ====
/-
  The certificate of the neighbour-sum kernel: `x[i] + ∑ over j of adj[i, j] · x[j]` for a 16384 × 128 feature array `x`
  and a 16384 × 16384 array `adj` of signed 32-bit words.

  The kernel tiles `adj` into 16 × 8 blocks of 1024 × 2048 words and keeps `x` resident. For each of the 16 row blocks
  it runs eight points: the first copies the row block's own rows of `x` into an accumulator (the residual term), each
  point adds to the accumulator the product of its block of `adj` (converted to floats) with the 2048 rows of `x` that
  the block's columns select, and the last copies the accumulator to the output's row block. The reference converts
  `adj` to floats, forms the one product with `x`, and adds `x`.

  Over the extended reals a converted word is the integer it denotes whatever the float format, and a matrix product is
  the plain sum over the contracted axis. So both results are, at row `r` and column `q`,
  `x[r, q] + ∑ j < 16384, adj[r, j] · x[j, q]` (Proof/Spec.lean's `G`): the reference with the 16384 products in one
  sum (Proof/RefValue.lean), the kernel with the residual first and the products added in eight consecutive stretches
  of 2048 (Proof/Pieces.lean, Proof/Payload.lean: what a point does to the accumulator; Proof/Accum.lean: the
  accumulator after every point, by induction on the point; Proof/Final.lean: the output's row blocks tile the result
  array). The two differ only in how one finite sum is bracketed, which addition's associativity settles; no
  finiteness of the inputs is used.

  The three frames are the programs' runs with the results dropped; the idealization rewrote nothing, so `preserves`
  is trivial.
-/
import proofs.«138589_j28157805593351_2_alg».proof.Defs
import proofs.«138589_j28157805593351_2_alg».proof.Proof.Gen.Kernel
import proofs.«138589_j28157805593351_2_alg».proof.Proof.Gen.Kernel.Skeleton
import proofs.«138589_j28157805593351_2_alg».proof.Proof.Gen.Kernel.Launch
import proofs.«138589_j28157805593351_2_alg».proof.Proof.Gen.Kernel.Points
import proofs.«138589_j28157805593351_2_alg».proof.Proof.Gen.Kernel.Frame
import proofs.«138589_j28157805593351_2_alg».proof.Proof.Gen.KernelIdeal
import proofs.«138589_j28157805593351_2_alg».proof.Proof.Gen.KernelIdeal.Skeleton
import proofs.«138589_j28157805593351_2_alg».proof.Proof.Gen.KernelIdeal.Launch
import proofs.«138589_j28157805593351_2_alg».proof.Proof.Gen.KernelIdeal.Points
import proofs.«138589_j28157805593351_2_alg».proof.Proof.Gen.KernelIdeal.Frame
import proofs.«138589_j28157805593351_2_alg».proof.Proof.Gen.ReferenceIdeal
import proofs.«138589_j28157805593351_2_alg».proof.Proof.Gen.Pre_finite_inputs
import proofs.«138589_j28157805593351_2_alg».proof.Proof.Gen.KernelIdeal.Value
import proofs.«138589_j28157805593351_2_alg».proof.Proof.Gen.ReferenceIdeal.Run
import proofs.«138589_j28157805593351_2_alg».proof.Proof.Gen.ReferenceIdeal.Read
import proofs.«138589_j28157805593351_2_alg».proof.Proof.Final
import proofs.«138589_j28157805593351_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals the kernel's result array ends at `G` of its arguments (the accumulation, block by block)
    and the reference's at its three operations' term of arguments that agree, which is `G` of them too. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Final.result m c
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
